-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x512 : Shape := ⟨3, ![1, 256, 512]⟩
abbrev S_ : Shape := ⟨0, ![]⟩

class Facts : Prop where
  bcast_S_S1x256x512 : S_.BroadcastsInDim S1x256x512 (![] : Fin 0 → Fin S1x256x512.rank)
  reducesTo_S1x256x512_S_d0_1_2 : S1x256x512.ReducesTo [0, 1, 2] S_
  h_S_ : 0 < S_.numel

variable [Facts]

def fn {F : FTy → Type} [FloatOps F] (main_arg0 : FVec F S1x256x512 .f32) : IVec S_ 1 :=
  let main_v0 : FVec F S1x256x512 .f32 := Host.absf main_arg0
  let main_cst : FVec F S_ .f32 := constant S_ .f32 0x7F800000#32
  let main_v1 : FVec F S1x256x512 .f32 := broadcastInDim S1x256x512 ![] bcast_S_S1x256x512 main_cst
  let main_v2 : IVec S1x256x512 1 := cmpf .olt main_v0 main_v1
  let main_c : IVec S_ 1 := constantI S_ 1 1#1
  let main_v3 : IVec S_ 1 := (fun x v => Host.reduce IntOp.andi x v reducesTo_S1x256x512_S_d0_1_2 h_S_) main_v2 main_c
  main_v3
-- ==== Pre_finite_inputs_ReferenceIdeal.lean ====
abbrev S2x256x512 : Shape := ⟨3, ![2, 256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel

variable [Facts]

def fn {F : FTy → Type} [FloatOps F] (main_arg0 : FVec F S2x256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  main_v3
-- ==== Kernel.lean ====
abbrev S1x256x512 : Shape := ⟨3, ![1, 256, 512]⟩
abbrev S256x256 : Shape := ⟨2, ![256, 256]⟩
abbrev S_ : Shape := ⟨0, ![]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S1x256x512, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_off1 (d0 : Dev nD) : Fin 3 → Nat :=
  let c0 : Index := 0#32
  let c0_7 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c256_i32 : BitVec 32 := 256#32
  let v12 : BitVec 32 := Scalar.muli v6 c256_i32
  let v13 : Index := Scalar.indexCast v12
  ![0, 0, v13.toNat]
def k0_dev2 (d0 : Dev nD) : Nat :=
  let c0_i32_11 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_10 : BitVec 32 := 2#32
  let v20 : BitVec 32 := Scalar.muli v6 c2_i32_10
  let v21 : BitVec 32 := Scalar.addi c0_i32_11 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v22 : BitVec 32 := Scalar.muli v5 c1_i32_12
  let v23 : BitVec 32 := Scalar.addi v21 v22
  v23.toNat
def k0_off2 (d0 : Dev nD) : Fin 3 → Nat :=
  let c0_18 : Index := 0#32
  let c0_19 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_17 : BitVec 32 := 256#32
  let v28 : BitVec 32 := Scalar.muli v2 c256_i32_17
  let v29 : Index := Scalar.indexCast v28
  ![0, 0, v29.toNat]
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S1x256x256 : 0 < S1x256x256.numel
  shapeCasts_S1x256x256_S256x256 : S1x256x256.ShapeCasts S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  hcc0_scratch2 : 2 + S_.numel ≤ 4
  hcc0_scratch3 : 3 + S_.numel ≤ 4
  k0_dev1_lt : ∀ d0 : Dev nD, (k0_dev1 d0) < nD
  k0_off1_inb : ∀ d0 : Dev nD, ∀ a, (k0_off1 d0) a + S1x256x256.size a ≤ S1x256x512.size a
  k0_dev2_lt : ∀ d0 : Dev nD, (k0_dev2 d0) < nD
  k0_off2_inb : ∀ d0 : Dev nD, ∀ a, (k0_off2 d0) a + S1x256x256.size a ≤ S1x256x512.size a
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x256x512_S256x512_d0 : S2x256x512.ReducesTo [0] S256x512
  h_S_ : 0 < S_.numel

variable [Facts₀]

class Facts : Prop extends Facts₀ where

variable [Facts]
-- ==== Proof.Vals.lean ====
/-
  The data of the reduce-scatter, as pure functions of the devices' blocks of `x`.

  The mesh is 2 × 2; device `c` sits at row `c / 2` (the axis the kernel scatters along) and column `c % 2`.
  Its partner `peer c` is the device of the OTHER row in the same column.  Device `c` holds row-block `c / 2`
  of `x`, a 256 × 512 slab.  It sends its partner the column half the PARTNER is responsible for, narrowed
  to bf16 (`sendOf`), keeps the half it is responsible for itself, and adds to it what its partner sent
  (`outOf`).  At the ideal instance the narrowing is the identity, so the result is the sum over the two row
  blocks of the column half `c / 2`.
-/
import proofs.«900292_g7700000000000293_dist_rs_v7x_xy2x2_x_m256_n256_bf16_1_alg».proof.Proof.Gen.KernelIdeal.Skeleton
import Idealize.ShloMosaic.Lib.Pipeline.Value

noncomputable section

namespace Cert.KernelIdeal.RS

open Cert.KernelIdeal Cert.KernelIdeal.Gen
open Idealize.ShloMosaic

variable {F : FTy → Type} [FloatOps F]

/-- The partner of device `c`: the other row of the mesh, the same column. -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- Both of the kernel's device chains (the signal's and the transfer's) name the partner. -/
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel

/-- The column half of the slab the PARTNER is responsible for (what is sent), -/
abbrev rSend (c : Dev nD) : Rect S1x256x512 := Rect.unit (s := S1x256x512) (k0_off1 c) S1x256x256.size (k0_off1_inb c)
/-- the half the device is responsible for itself (what is kept), -/
abbrev rKeep (c : Dev nD) : Rect S1x256x512 := Rect.unit (s := S1x256x512) (k0_off2 c) S1x256x256.size (k0_off2_inb c)
/-- and a whole 256 × 256 buffer. -/
abbrev rAll : Rect S256x256 := Rect.unit (s := S256x256) ![0, 0] S256x256.size inb_S256x256_S256x256_0_0

/-- What device `c` puts in its send buffer, from its slab `x`: the partner's half, narrowed. -/
def sendOf (c : Dev nD) (x : Vec F S1x256x512 .f32) : Vec F S256x256 .bf16 :=
  k0_pay2 (View.ld x (rSend c))

/-- What device `c` leaves as its result, from its slab `x` and what landed in its receive buffer: its own half plus that. -/
def outOf (c : Dev nD) (x : Vec F S1x256x512 .f32) (r : Vec F S256x256 .bf16) : Vec F S256x256 .f32 :=
  k0_pay1 (View.ld x (rKeep c)) r

end Cert.KernelIdeal.RS

end
-- ==== Proof.Proto.lean ====
/-
  The cross-device protocol of the reduce-scatter, under the rounds discipline.

  Each device `c` has three cells, each with ONE round of ONE duty:
  * its barrier cell: one unit, paid by its partner's signal.  The unit tells `c` that the partner is inside the
    kernel, and hands it the partner's receive buffer (at whatever contents) together with the fact that the
    partner's receive cell is at its round 0 — what `c`'s transfer into that buffer needs;
  * its send cell: the buffer's credit, paid by `c`'s own transfer once the send buffer has been read; it hands
    back the send buffer, still holding what `c` narrowed into it (`sendVal c`);
  * its receive cell: the buffer's credit, paid by the PARTNER's transfer once it has landed; it hands `c` its
    receive buffer holding what the partner sent (`landed c = sendVal (peer c)`).
  A device owes, at launch, one unit to its partner's barrier cell and the buffer's credit to its partner's
  receive cell.  Levels: barrier cells below receive cells, so the barrier wait (still owing the transfer) is
  allowed; the two transfer waits come when nothing is owed.
-/
import proofs.«900292_g7700000000000293_dist_rs_v7x_xy2x2_x_m256_n256_bf16_1_alg».proof.Proof.Vals
import proofs.«900292_g7700000000000293_dist_rs_v7x_xy2x2_x_m256_n256_bf16_1_alg».proof.Proof.Gen.KernelIdeal.Launch
import proofs.«900292_g7700000000000293_dist_rs_v7x_xy2x2_x_m256_n256_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's staging cells, and the protocol's three cells per device -/

abbrev UX : Type := URounds (GSem nD τ sig) Unit
abbrev UA : Type := UR sig nD τ × UX

local notation "𝕄" => MT nD τ sig Unit (Elt F) ℕ UA ℕ

abbrev EP : Emb (UR sig nD τ) (MT nD τ sig Unit (Elt F) ℕ UA ℕ) := embL
abbrev EX : Emb UX (MT nD τ sig Unit (Elt F) ℕ UA ℕ) := embR

variable (m : (ℓ : Loc nD τ sig) → Buf (Elt F) ℓ) (ρ : Dev nD → PrngReg)

/-! ## Buffers and cells -/

abbrev xM : Memref sig .tc .vmem S1x256x512 .f32 := Memref.whole cc0_stg0_0
abbrev oM : Memref sig .tc .vmem S256x256 .f32 := Memref.whole cc0_stg1_0
abbrev sndM : Memref sig .tc .vmem S256x256 .bf16 := Memref.whole cc0_scratch0
abbrev rcvM : Memref sig .tc .vmem S256x256 .bf16 := Memref.whole cc0_scratch1

abbrev barS : Sem sig := (SemArray.scalar (sig.barrier 0 rfl) : Sems sig S_).sem
abbrev outS : DmaSems sig S_ := cc0_scratch2
abbrev inS : DmaSems sig S_ := cc0_scratch3

abbrev barC (c : Dev nD) : GSem nD τ sig := ((c : Thread nD τ), .reg barS)
abbrev outC (c : Dev nD) : GSem nD τ sig := ((c : Thread nD τ), .dma outS.sem)
abbrev inC (c : Dev nD) : GSem nD τ sig := ((c : Thread nD τ), .dma inS.sem)

/-- The kernel's own (scoped) semaphores as the launch indexes them, -/
abbrev osem : Fin 2 → SemLoc sig := fun | 0 => .dma outS.sem | 1 => .dma inS.sem
/-- and all three of a device's cells as this proof indexes them. -/
abbrev csem : Fin 3 → SemLoc sig := fun | 0 => .reg barS | 1 => .dma outS.sem | 2 => .dma inS.sem
abbrev kcell (ck : Dev nD × Fin 3) : GSem nD τ sig := ((ck.1 : Thread nD τ), csem ck.2)

/-- The credit of one whole 256 × 256 bf16 buffer. -/
abbrev N : ℕ := (rcvM : Memref sig .tc .vmem S256x256 .bf16).view.dmaCredit
theorem N_pos : 0 < N := View.dmaCredit_pos _ (by decide)

/-! ## Contents -/

/-- Device `c`'s slab of `x`, as the pipeline stages it. -/
def xstg (c : Dev nD) : (cc0_stg0_0 : Ref sig .tc).ty.Contents (Elt F) :=
  (win0_0.blk (0 : Fin 1)).view.read (Elt F) (m ((c : Thread nD τ).loc main_arg0))
/-- What device `c` narrows into its send buffer, -/
def sendVal (c : Dev nD) : (cc0_scratch0 : Ref sig .tc).ty.Contents (Elt F) := sendOf c (xstg m c)
/-- what lands in its receive buffer: what its partner sent, -/
def landed (c : Dev nD) : (cc0_scratch1 : Ref sig .tc).ty.Contents (Elt F) := sendVal m (peer c)
/-- and its result. -/
def outAt (c : Dev nD) : (cc0_stg1_0 : Ref sig .tc).ty.Contents (Elt F) := outOf c (xstg m c) (landed m c)

omit [FloatOps F] in
/-- A whole buffer written whole from a whole buffer holds what that one held. -/
theorem write_whole_eq (c : Dev nD) (fd : Buf (Elt F) ((rcvM : Memref sig .tc .vmem S256x256 .bf16).view.loc (c : Thread nD τ)))
    (fs : (cc0_scratch0 : Ref sig .tc).ty.Contents (Elt F)) :
    (rcvM : Memref sig .tc .vmem S256x256 .bf16).view.write (Elt F) fd ((sndM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- What the partner's signal hands the owner `d` of a barrier cell. -/
def barPay (d : Dev nD) : sProp 𝕄 :=
  iprop((∃ f : Buf (Elt F) (((peer d : Dev nD) : Thread nD τ).loc cc0_scratch1), (((peer d : Dev nD) : Thread nD τ).loc cc0_scratch1) ↦{fullShare} f)
    ∗ reached EX (inC (peer d)) 0)
def inPay (d : Dev nD) : sProp 𝕄 := (((d : Thread nD τ).loc cc0_scratch1) ↦{fullShare} landed m d)
def outPay (d : Dev nD) : sProp 𝕄 := (((d : Thread nD τ).loc cc0_scratch0) ↦{fullShare} sendVal m d)

abbrev IsCell (g : GSem nD τ sig) : Prop := g.1.2 = .tc ∧ (g.2 = .reg barS ∨ g.2 = .dma outS.sem ∨ g.2 = .dma inS.sem)

def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma inS.sem then inPay m g.1.1
    else if g.2 = .dma outS.sem then outPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma inS.sem then inPay m g.1.1
    else if g.2 = .dma outS.sem then outPay m g.1.1 else iprop(emp))
  unfold barPay inPay outPay
  (repeat' split) <;> infer_instance

section Tables
variable (c : Dev nD)

theorem out_ne_bar : (SemLoc.dma outS.sem : SemLoc sig) ≠ .reg barS := fun h => by cases h
theorem in_ne_bar : (SemLoc.dma inS.sem : SemLoc sig) ≠ .reg barS := fun h => by cases h
theorem out_ne_in : (SemLoc.dma outS.sem : SemLoc sig) ≠ .dma inS.sem := by decide
theorem in_ne_out : (SemLoc.dma inS.sem : SemLoc sig) ≠ .dma outS.sem := by decide

theorem duties_bar : (sched (F := F) m).duties (barC c) 0 = {()} := by dsimp only [sched]; exact if_pos ⟨rfl, rfl, .inl rfl⟩
theorem duties_out : (sched (F := F) m).duties (outC c) 0 = {()} := by dsimp only [sched]; exact if_pos ⟨rfl, rfl, .inr (.inl rfl)⟩
theorem duties_in : (sched (F := F) m).duties (inC c) 0 = {()} := by dsimp only [sched]; exact if_pos ⟨rfl, rfl, .inr (.inr rfl)⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barC c) 0 d = 1 := by dsimp only [sched]; exact if_pos rfl
theorem amount_out (d : Unit) : (sched (F := F) m).amount (outC c) 0 d = N := by dsimp only [sched]; exact if_neg out_ne_bar
theorem amount_in (d : Unit) : (sched (F := F) m).amount (inC c) 0 d = N := by dsimp only [sched]; exact if_neg in_ne_bar

theorem expect_bar : (sched (F := F) m).expect (barC c) 0 = 1 := by
  unfold Schedule.expect Schedule.amountOf; rw [duties_bar, Finset.sum_singleton, amount_bar]
theorem expect_out : (sched (F := F) m).expect (outC c) 0 = N := by
  unfold Schedule.expect Schedule.amountOf; rw [duties_out, Finset.sum_singleton, amount_out]
theorem expect_in : (sched (F := F) m).expect (inC c) 0 = N := by
  unfold Schedule.expect Schedule.amountOf; rw [duties_in, Finset.sum_singleton, amount_in]

theorem payload_bar (d : Unit) : (sched (F := F) m).payload (barC c) 0 d = barPay c := by dsimp only [sched]; rw [if_pos rfl]
theorem payload_out (d : Unit) : (sched (F := F) m).payload (outC c) 0 d = outPay m c := by
  dsimp only [sched]; rw [if_neg out_ne_bar, if_neg out_ne_in, if_pos rfl]
theorem payload_in (d : Unit) : (sched (F := F) m).payload (inC c) 0 d = inPay m c := by
  dsimp only [sched]; rw [if_neg in_ne_bar, if_pos rfl]

end Tables

/-! ## What a device owes at launch; the levels -/

def O₀ (c : Dev nD) : CellTallies nD τ sig Unit := tallyAt (inC (peer c)) () N + tallyAt (barC (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma inS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = inC (peer c) ∨ g = barC (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging wait (level 0) while owing what is owed at launch, or nothing. -/
theorem mayWait_stage (c : Dev nD) (q : DmaSem sig) (hq : SemLoc.dma q ≠ .dma inS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg in_ne_bar, if_pos rfl]; decide
        · dsimp only [lv]; rw [if_pos rfl]; decide)
  · rw [MayWait_zero]; iintro -; iempintro

omit [FloatOps F] in
/-- The barrier wait (level 1) while owing the partner's receive credit (level 2). -/
theorem mayWait_bar (c : Dev nD) :
    (levAts L lv : sProp 𝕄) ⊢ MayWait (c : Thread nD τ) (.reg barS) () (tallyAt (inC (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = inC (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = inC (peer c) ∧ u = ()
      · rw [h.1]; dsimp only [lv]; rw [if_neg in_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cell invariants device `c`'s body opens, at the names `K` the launch allocated them under: its own three, its
    partner's barrier cell (its signal) and its partner's receive cell (its transfer). -/
def invs (K : Dev nD × Fin 3 → ℕ) (c : Dev nD) : sProp 𝕄 :=
  iprop(cellInv EX (sched m) (K (c, 0)) (barC c) ∗ cellInv EX (sched m) (K (c, 1)) (outC c) ∗ cellInv EX (sched m) (K (c, 2)) (inC c)
    ∗ cellInv EX (sched m) (K (peer c, 0)) (barC (peer c)) ∗ cellInv EX (sched m) (K (peer c, 2)) (inC (peer c)))

instance invs_persistent (K : Dev nD × Fin 3 → ℕ) (c : Dev nD) : BI.Persistent (invs m K c) := by unfold invs; infer_instance

/-- The protocol's ghost state device `c` starts from: the invariants; its positions at round 0 of its three cells; round 0
    reached of the cells it pays and of its own receive cell (which its signal passes on); the three duty tokens it pays
    with — its partner's barrier duty, its partner's receive duty, its own send duty. -/
def ghost (K : Dev nD × Fin 3 → ℕ) (c : Dev nD) : sProp 𝕄 :=
  iprop(invs m K c
    ∗ atPos EX (barC c) 0 ∅ 0 ∗ atPos EX (outC c) 0 ∅ 0 ∗ atPos EX (inC c) 0 ∅ 0
    ∗ reached EX (barC (peer c)) 0 ∗ reached EX (inC (peer c)) 0 ∗ reached EX (outC c) 0 ∗ reached EX (inC c) 0
    ∗ dutyTok EX (barC (peer c)) 0 () ∗ dutyTok EX (inC (peer c)) 0 () ∗ dutyTok EX (outC c) 0 ())

/-- What device `c`'s body starts from: that at some names, its two launch credits and the level facts. -/
def start (c : Dev nD) : sProp 𝕄 :=
  iprop((∃ K, ghost m K c) ∗ cred (tallyAt (barC c) () 1) ∗ cred (tallyAt (inC c) () N) ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: both scratch buffers at their final contents, the two own cells closed at zero. -/
def Φ₁ (c : Dev nD) : sProp 𝕄 :=
  iprop((((c : Thread nD τ).loc cc0_scratch0) ↦{fullShare} sendVal m c) ∗ (((c : Thread nD τ).loc cc0_scratch1) ↦{fullShare} landed m c)
    ∗ semVal (outC c) 0 ∗ semVal (inC c) 0)

def dats (_ : Fin 1) (c : Dev nD) : Dat τ (Elt F) Unit ℕ UA ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.RS

end
-- ==== Proof.Body.lean ====
/-
  One device's body, run once at a symbolic device `c`.

  From the protocol's ghost state at round 0, both scratch buffers at whatever they hold, the slab staged and the
  result's staging buffer at whatever it holds: the device signals its partner's barrier cell (handing over its own
  receive buffer), waits for its own (receiving the partner's), narrows the partner's half of its slab into its send
  buffer, transfers that into the partner's receive buffer, waits until its send buffer has been read and its own
  receive buffer written, and stores its own half plus what landed.  It ends owing nothing, both scratch buffers at
  their named contents, its two own cells closed at zero.
-/
import proofs.«900292_g7700000000000293_dist_rs_v7x_xy2x2_x_m256_n256_bf16_1_alg».proof.Proof.Proto

noncomputable section

namespace Cert.KernelIdeal.RS

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ)

/-! ## The schedule's tables as the stepping reads them: each payload spelt as the buffer it hands over -/

theorem landed_peer (c : Dev nD) : landed m (peer c) = sendVal m c := by unfold landed; rw [peer_peer]

set_option quotPrecheck false in
local notation "sndL" c => (View.loc ((c : Dev nD) : Thread nD τ) (Memref.view (Memref.whole cc0_scratch0 : Memref sig .tc .vmem S256x256 .bf16)))
set_option quotPrecheck false in
local notation "rcvL" c => (View.loc ((c : Dev nD) : Thread nD τ) (Memref.view (Memref.whole cc0_scratch1 : Memref sig .tc .vmem S256x256 .bf16)))
set_option quotPrecheck false in
local notation "xL" c => (View.loc ((c : Dev nD) : Thread nD τ) (Memref.view (Memref.whole cc0_stg0_0 : Memref sig .tc .vmem S1x256x512 .f32)))
set_option quotPrecheck false in
local notation "oL" c => (View.loc ((c : Dev nD) : Thread nD τ) (Memref.view (Memref.whole cc0_stg1_0 : Memref sig .tc .vmem S256x256 .f32)))

theorem pay_bar (c : Dev nD) (d : Unit) : (sched (F := F) m).payload (barC c) 0 d
    = iprop((∃ f : Buf (Elt F) (rcvL (peer c)), (rcvL (peer c)) ↦{fullShare} f) ∗ reached EX (inC (peer c)) 0) := by rw [payload_bar]; rfl
theorem pay_bar_peer (c : Dev nD) (d : Unit) : (sched (F := F) m).payload (barC (peer c)) 0 d
    = iprop((∃ f : Buf (Elt F) (rcvL c), (rcvL c) ↦{fullShare} f) ∗ reached EX (inC c) 0) := by
  rw [payload_bar]; unfold barPay; rw [peer_peer]
theorem pay_out (c : Dev nD) (d : Unit) : (sched (F := F) m).payload (outC c) 0 d
    = ((sndL c) ↦{fullShare} sendVal m c : sProp 𝕄) := by rw [payload_out]; rfl
theorem pay_in (c : Dev nD) (d : Unit) : (sched (F := F) m).payload (inC c) 0 d
    = ((rcvL c) ↦{fullShare} landed m c : sProp 𝕄) := by rw [payload_in]; rfl
theorem pay_in_peer (c : Dev nD) (d : Unit) : (sched (F := F) m).payload (inC (peer c)) 0 d
    = ((rcvL (peer c)) ↦{fullShare} sendVal m c : sProp 𝕄) := by
  rw [payload_in]; unfold inPay; rw [landed_peer]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem hz2 : (![0, 0] : Fin 2 → Nat) = fun _ => 0 := funext fun a => by fin_cases a <;> rfl

/-- One whole store into a whole 256 × 256 bf16 buffer leaves the stored value, whatever was there. -/
theorem snd_writes (f w : (cc0_scratch0 : Ref sig .tc).ty.Contents (Elt F)) :
    (Memref.whole cc0_scratch0 : Memref sig .tc .vmem S256x256 .bf16).view.writes (Elt F) f [⟨rAll, w⟩] = w := by
  rw [View.writes_singleton]; exact Memref.write_access_unit_zero_univ (Elt F) cc0_scratch0 hz2 _ f w
theorem out_writes (f w : (cc0_stg1_0 : Ref sig .tc).ty.Contents (Elt F)) :
    (Memref.whole cc0_stg1_0 : Memref sig .tc .vmem S256x256 .f32).view.writes (Elt F) f [⟨rAll, w⟩] = w := by
  rw [View.writes_singleton]; exact Memref.write_access_unit_zero_univ (Elt F) cc0_stg1_0 hz2 _ f w
omit [FloatOps F] in
theorem rcv_read (f : (cc0_scratch1 : Ref sig .tc).ty.Contents (Elt F)) :
    (Memref.whole cc0_scratch1 : Memref sig .tc .vmem S256x256 .bf16).view.readAt (Elt F) rAll.toLoadRect f = f :=
  Memref.readAt_unit_zero (Elt F) cc0_scratch1 hz2 _ f

/-- The send buffer after the narrowing store holds `sendVal`; -/
theorem snd_named (c : Dev nD) (f : (cc0_scratch0 : Ref sig .tc).ty.Contents (Elt F)) :
    (Memref.whole cc0_scratch0 : Memref sig .tc .vmem S256x256 .bf16).view.writes (Elt F) f
        [⟨rAll, k0_pay2 ((Memref.whole cc0_stg0_0 : Memref sig .tc .vmem S1x256x512 .f32).view.readAt (Elt F) (rSend c).toLoadRect (xstg m c))⟩]
      = sendVal m c := by
  rw [snd_writes]; rfl
/-- the result's staging buffer after the final store holds `outAt`. -/
theorem out_named (c : Dev nD) (f : (cc0_stg1_0 : Ref sig .tc).ty.Contents (Elt F)) :
    (Memref.whole cc0_stg1_0 : Memref sig .tc .vmem S256x256 .f32).view.writes (Elt F) f
        [⟨rAll, k0_pay1 ((Memref.whole cc0_stg0_0 : Memref sig .tc .vmem S1x256x512 .f32).view.readAt (Elt F) (rKeep c).toLoadRect (xstg m c))
          ((Memref.whole cc0_scratch1 : Memref sig .tc .vmem S256x256 .bf16).view.readAt (Elt F) rAll.toLoadRect (landed m c))⟩]
      = outAt m c := by
  rw [out_writes, rcv_read]; rfl

section Body

variable (K : Dev nD × Fin 3 → ℕ)

def bodyPre (c : Dev nD) : sProp 𝕄 :=
  iprop((ghost m K c ∗ cred (tallyAt (barC c) () 1) ∗ cred (tallyAt (inC c) () N) ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

attribute [local sl_rounds] duties_bar duties_out duties_in amount_bar amount_out amount_in expect_bar expect_out expect_in
  pay_bar pay_out pay_in
attribute [local sl_rounds high] pay_bar_peer pay_in_peer
attribute [local sl_canon] dev1_eq dev2_eq

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs
  iintro ⟨⟨⟨⟨⟨#HIbar, #HIout, #HIin, #HIbarP, #HIinP⟩, HatB, HatO, HatI, #HrBP, #HrIP, #HrO, #HrI, HtBP, HtIP, HtO⟩, HcB, HcI, #Hlev, ⟨%fs0, Hsnd⟩, ⟨%fr0, Hrcv⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  have hmwB := mayWait_bar (F := F) c
  ihave Hsnd := (Entails.of_eq (show (((c : Thread nD τ).loc cc0_scratch0) ↦{fullShare} fs0 : sProp 𝕄) = ((sndL c) ↦{fullShare} fs0) from rfl)) $$ Hsnd
  ihave Hrcv := (Entails.of_eq (show (((c : Thread nD τ).loc cc0_scratch1) ↦{fullShare} fr0 : sProp 𝕄) = ((rcvL c) ↦{fullShare} fr0) from rfl)) $$ Hrcv
  ihave Hx := (Entails.of_eq (show (((c : Thread nD τ).loc cc0_stg0_0) ↦{fullShare} xstg m c : sProp 𝕄) = ((xL c) ↦{fullShare} xstg m c) from rfl)) $$ Hx
  ihave Hout := (Entails.of_eq (show (((c : Thread nD τ).loc cc0_stg1_0) ↦{fullShare} g1 : sProp 𝕄) = ((oL c) ↦{fullShare} g1) from rfl)) $$ Hout
  sl_unfold [cc0_body]
  sl_exec
  -- the send buffer now holds the narrowed half: name it, so that the transfer's two payloads are the schedule's
  ihave Hsnd := (Entails.of_eq (congrArg (fun v => ((sndL c) ↦{fullShare} v : sProp 𝕄)) (snd_named m c fs0))) $$ Hsnd
  sl_exec (disch := simp only [dev2_eq])
  -- both own cells are past their only round, nothing taken and nothing pending: closed, their counters at zero
  imod (Rounds.cell_close EX (sched m) (Set.mem_univ (K (c, 1))) (fun h => h) (R := 1) (duties_later m (outC c))) $$ [HatO] with HzO
  · isplitr; · iexact HIout
    iexact HatO
  imod (Rounds.cell_close EX (sched m) (Set.mem_univ (K (c, 2))) (fun h => h) (R := 1) (duties_later m (inC c))) $$ [HatI] with HzI
  · isplitr; · iexact HIin
    iexact HatI
  -- the result's staging buffer holds the device's own half plus what landed
  ihave Hout := (Entails.of_eq (congrArg (fun v => ((oL c) ↦{fullShare} v : sProp 𝕄)) (out_named m c g1))) $$ Hout
  sl_step
  iapply Hk
  unfold bodyPost Φ₁
  isplitl [HatO_pay1 HatI_pay1 HzO HzI]
  · isplitl [HatO_pay1]; · iexact HatO_pay1
    isplitl [HatI_pay1]; · iexact HatI_pay1
    isplitl [HzO]; · iexact HzO
    iexact HzI
  isplitl [HO]
  · unfold Dat.owesAt Pipeline.owesWithin
    iexists (insert (SemLoc.dma inS.sem, ()) (insert (SemLoc.dma outS.sem, ()) (insert (SemLoc.reg barS, ()) W)))
    isplitr; · ipureintro; exact fun _ _ => Or.inl (Set.mem_univ _)
    iexact HO
  isplitl [Hx]
  · iexists _; isplitr; · (ipureintro; rfl)
    iexact Hx
  iexists _; isplitr; · (ipureintro; rfl)
  iexact Hout

end Body

/-! ## The body in the launch theorem's form -/

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`, at its one grid point. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m c)
  unfold bodyPre' Φ₀ start
  iintro ⟨⟨⟨⟨%K, Hg⟩, Hc1, Hc2, Hlev⟩, Hs, Hr⟩, Ho, Hx, Hout⟩
  iapply (sound_body m K c fun _ => bodyPost m c)
  unfold bodyPre
  isplitr []
  · isplitl [Hg Hc1 Hc2 Hlev Hs Hr]
    · isplitl [Hg]; · iexact Hg
      isplitl [Hc1]; · iexact Hc1
      isplitl [Hc2]; · iexact Hc2
      isplitl [Hlev]; · iexact Hlev
      isplitl [Hs]; · iexact Hs
      iexact Hr
    isplitl [Ho]; · iexact Ho
    isplitl [Hx] <;> iassumption
  · iintro H; iexact H

/-- info: 'Cert.KernelIdeal.RS.body_obligation' depends on axioms: [propext, Classical.choice, Quot.sound] -/
#guard_msgs in #print axioms body_obligation

end Cert.KernelIdeal.RS

end
-- ==== Proof.Launch.lean ====
/-
  The launch: from each device's body to the run of the whole mesh.

  The protocol's ghost state is dealt at launch for all four devices at once: every cell at round 0 with its duty
  token, the three cell invariants of every device allocated under one update (a device's barrier and receive cells
  are paid by its PARTNER, so their invariants are shared), and the tokens dealt to the devices that pay them — a
  barrier's and a receive cell's token to the partner, a send cell's to its owner.  The launch credit is what the
  others owe a device's cells: one unit on its barrier cell and one buffer's credit on its receive cell, both from
  its partner.  Every fair run of the four devices then ends, with each device's result array holding its own half
  of its slab plus its partner's narrowed half, and its slab of `x` as it was.
-/
import proofs.«900292_g7700000000000293_dist_rs_v7x_xy2x2_x_m256_n256_bf16_1_alg».proof.Proof.Body

noncomputable section

namespace Cert.KernelIdeal.RS

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-- The partner map as a permutation of the devices. -/
def pairing : Dev nD ≃ Dev nD := ⟨peer, peer, peer_peer, peer_peer⟩

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def allCells : Finset (GSem nD τ sig) := Finset.univ.map ⟨kcell, kcell_injective⟩

/-- Each cell's one duty token as minted: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def allToks : Finset (GSem nD τ sig × ℕ × Unit) := Finset.univ.map ⟨tokOf, tokOf_injective⟩

def u₀ : UA :=
  (initOf (Pipeline.cells cfgs cellOf_inj) (Pipeline.launchToks cfgs cellOf_inj), initOf allCells allToks)

/-- The duty tokens of device `c`'s own cells. -/
def toks (c : Dev nD) : sProp 𝕄 :=
  iprop(dutyTok EX (barC c) 0 () ∗ dutyTok EX (outC c) 0 () ∗ dutyTok EX (inC c) 0 ())

/-- What the launch element deals device `c`. -/
def G (c : Dev nD) : sProp 𝕄 :=
  iprop((bigSep Finset.univ fun k : Fin 3 => roundState EX (sched m) (kcell (c, k)) 0)
    ∗ (bigSep Finset.univ fun k : Fin 3 => iprop(atPos EX (kcell (c, k)) 0 ∅ 0 ∗ reached EX (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_cells : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 3 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    exact bigSep_congr fun c _ => by unfold toks; rw [bigSep_fin3]; rfl
  iintro HX
  imod (Rounds.fund EX (sched m) allCells allToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UA) (Lvl := ℕ) (Val := Elt F) (τ := τ) osem c : sProp 𝕄)
    = iprop(semVal (outC c) 0 ∗ semVal (inC c) 0) := by
  rw [Pipeline.ownSems0_eq_of_list c osem [0, 1] (by decide) (by decide)]; rfl
omit [FloatOps F] in
/-- the barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UA) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UA) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv EX (sched m) (K ck) (kcell ck))
    ∗ bigSep Finset.univ fun ck : Dev nD × Fin 3 => reached EX (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv EX (sched m) (K ck) (kcell ck) : sProp 𝕄)) ⊢ cellInv EX (sched m) (K ck) (kcell ck) :=
  bigSep_elim (Finset.mem_univ ck)
omit [FloatOps F] in
theorem reached_at (ck : Dev nD × Fin 3) :
    (bigSep Finset.univ fun ck : Dev nD × Fin 3 => (reached EX (kcell ck) 0 : sProp 𝕄)) ⊢ reached EX (kcell ck) 0 :=
  bigSep_elim (Finset.mem_univ ck)

/-- What stays with device `c`: its positions, and the tokens of the duties IT pays. -/
def payToks (c : Dev nD) : sProp 𝕄 :=
  iprop(dutyTok EX (barC (peer c)) 0 () ∗ dutyTok EX (inC (peer c)) 0 () ∗ dutyTok EX (outC c) 0 ())
def linear (c : Dev nD) : sProp 𝕄 :=
  iprop((atPos EX (barC c) 0 ∅ 0 ∗ atPos EX (outC c) 0 ∅ 0 ∗ atPos EX (inC c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaO, HaI⟩, HtBP, HtIP, HtO⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaO]; · iexact HaO
  isplitl [HaI]; · iexact HaI
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtIP]; · iexact HtIP
  iexact HtO

omit [FloatOps F] in
/-- The tokens dealt to their payers: a barrier's and a receive cell's token to the partner, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok EX (barC c) 0 () : sProp 𝕄)),
    bigSep_univ_equiv pairing (fun c : Dev nD => (dutyTok EX (inC c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv EX (sched m) κ (kcell ck))),
    bigSep_congr (s := Finset.univ) (fun (c : Dev nD) _ => bigSep_sep' Finset.univ (fun k : Fin 3 => (atPos EX (kcell (c, k)) 0 ∅ 0 : sProp 𝕄)) (fun k => reached EX (kcell (c, k)) 0)),
    bigSep_sep', ← bigSep_univ_prod (fun ck : Dev nD × Fin 3 => (reached EX (kcell ck) 0 : sProp 𝕄))]
  iintro ⟨HI, ⟨Hat, #HR⟩, Htok⟩
  ihave HK := (BI.bigSep_exists_pi Finset.univ (fun (ck : Dev nD × Fin 3) (κ : ℕ) => (cellInv EX (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos EX (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UA) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barC a = barC b) (a = b) :=
  ⟨fun h => Fin.ext (congrArg (fun g : GSem nD τ sig => g.1.1.val) h), fun h => h ▸ rfl⟩
omit [FloatOps F] in
theorem in_eq_iff {a b : Dev nD} : Iff (inC a = inC b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barC c) () = if d = peer c then 1 else 0 := by
  unfold O₀
  rw [Pi.add_apply, Finsupp.add_apply, tallyAt_ne_cell (fun h => in_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

omit [FloatOps F] in
/-- What device `d` owes device `c`'s receive cell: the buffer's credit if it is `c`'s partner. -/
theorem owed_in (d c : Dev nD) : O₀ d (inC c) () = if d = peer c then N else 0 := by
  unfold O₀
  rw [Pi.add_apply, Finsupp.add_apply, tallyAt_apply, tallyAt_ne_cell (fun h => in_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [in_eq_iff.mp h1, peer_peer])), if_neg h]

omit [FloatOps F] in
theorem launch_bar (c : Dev nD) :
    tallyOn (barC c) (launchCredit (Pipeline.owing O₀) 0 (barC c)) = (tallyAt (barC c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_in (c : Dev nD) :
    tallyOn (inC c) (launchCredit (Pipeline.owing O₀) 0 (inC c)) = (tallyAt (inC c) () N : CellTallies nD τ sig Unit) := by
  unfold tallyAt; refine congrArg _ (Finsupp.ext fun u => ?_); cases u
  rw [Pipeline.launchCredit_owing, Finsupp.single_eq_same, Finset.sum_congr rfl fun d _ => owed_in d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barC c) () 1) ∗ cred (tallyAt (inC c) () N)) := by
  unfold Pipeline.launchCred
  rw [bigSep_univ_at _ (SemLoc.reg barS), launch_bar]
  refine sep_mono_right ?_
  rw [← launch_in]
  exact bigSep_elim (Finset.mem_erase.mpr ⟨in_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hsn⟩, ⟨%f', Hrc⟩⟩
  isplitl [Hs]; · iexact Hs
  isplitl [Hsn]
  · iexists f; iexact Hsn
  · iexists f'; iexact Hrc

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hsn, Hrc, HzO, HzI⟩
  isplitr; · iempintro
  isplitl [HzO HzI]
  · isplitl [HzO] <;> iassumption
  isplitl [Hsn]
  · iexists (sendVal m c); iexact Hsn
  · iexists (landed m c); iexact Hrc

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main — the two pairs of partners handshaking on the barrier semaphore, then exchanging their narrowed
    halves — terminates, nothing faulting, and every final state has each device's two arrays at the proof data's final
    contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.RS.run_main' depends on axioms: [propext, Classical.choice, Quot.sound] -/
#guard_msgs in #print axioms run_main

end Cert.KernelIdeal.RS

end
-- ==== Proof.Final.lean ====
/-
  What the run leaves in each device's two arrays.

  Each array is one block, the whole array, at the one grid point.  The slab of `x` is never written back: it ends
  as it began.  The result array is written back once, with what the body left in its staging buffer: the device's own
  half of its slab plus its partner's narrowed half (`outAt`).  And the staged slab is the array itself.
-/
import proofs.«900292_g7700000000000293_dist_rs_v7x_xy2x2_x_m256_n256_bf16_1_alg».proof.Proof.Launch

noncomputable section

namespace Cert.KernelIdeal.RS

open Cert.KernelIdeal Cert.KernelIdeal.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

omit [FloatOps F] in
/-- The slab as staged is the slab: the window's one block is the whole array. -/
theorem xstg_eq (c : Dev nD) : xstg m c = m ((c : Thread nD τ).loc main_arg0) := by
  have hz0 : (fun a => (win0_0.index (0 : Fin 1)) a * (main_arg0 : Ref sig .tc).ty.shape.size a) = fun _ => 0 :=
    funext fun a => by fin_cases a <;> decide
  exact Memref.read_access_unit_zero (Elt F) main_arg0 hz0 (fun a => by fin_cases a <;> decide) _

/-- The slab's array after the run holds what it held. -/
theorem finalA_x (c : Dev nD) : finalA m c (0 : Fin 2) = m (win0_0.arr.view.loc (c : Thread nD τ)) :=
  (dats (F := F) m 0 c).arrAt_in (0 : Fin 2) rfl _

/-- The result's array after the run holds `outAt`: the one write-back writes the whole array. -/
theorem finalA_out (c : Dev nD) : finalA m c (1 : Fin 2) = outAt m c := by
  have hz : (fun a => (win0_1.index (0 : Fin 1)) a * (main_v1 : Ref sig .tc).ty.shape.size a) = fun _ => 0 :=
    funext fun a => by fin_cases a <;> decide
  have hr := fun f => Memref.read_access_unit_zero (Elt F) main_v1 hz (fun a => by fin_cases a <;> decide) f
  have hs : finalA m c (1 : Fin 2)
      = ((cfg0.win (1 : Fin 2)).blk t₀).view.write (Elt F) ((dats m 0 c).arrAt (1 : Fin 2) t₀.val) ((dats m 0 c).flushed (1 : Fin 2) t₀) Finset.univ := by
    show (dats m 0 c).arrAt (1 : Fin 2) (t₀.val + 1) = _
    rw [Dat.arrAt_succ, if_pos (flush0_1 t₀)]
  have h1 := View.read_write_univ (v := ((cfg0.win (1 : Fin 2)).blk t₀).view) ((dats m 0 c).arrAt (1 : Fin 2) t₀.val) ((dats m 0 c).flushed (1 : Fin 2) t₀)
  rw [← hs] at h1
  exact (hr (finalA m c (1 : Fin 2))).symm.trans h1

/-- Every fair run of the mesh ends, each device's result array at `outAt` and its slab as it was. -/
theorem run_named : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun r h c => ⟨(h c (1 : Fin 2)).trans (finalA_out m c), (h c (0 : Fin 2)).trans (finalA_x m c)⟩) (run_main m ρ)

/-- info: 'Cert.KernelIdeal.RS.run_named' depends on axioms: [propext, Classical.choice, Quot.sound] -/
#guard_msgs in #print axioms run_named

end Cert.KernelIdeal.RS

end
-- ==== Proof.ValsW.lean ====
/-
  The data of the reduce-scatter, as pure functions of the devices' blocks of `x`.

  The mesh is 2 × 2; device `c` sits at row `c / 2` (the axis the kernel scatters along) and column `c % 2`.
  Its partner `peer c` is the device of the OTHER row in the same column.  Device `c` holds row-block `c / 2`
  of `x`, a 256 × 512 slab.  It sends its partner the column half the PARTNER is responsible for, narrowed
  to bf16 (`sendOf`), keeps the half it is responsible for itself, and adds to it what its partner sent
  (`outOf`).  At the ideal instance the narrowing is the identity, so the result is the sum over the two row
  blocks of the column half `c / 2`.
-/
import proofs.«900292_g7700000000000293_dist_rs_v7x_xy2x2_x_m256_n256_bf16_1_alg».proof.Proof.Gen.Kernel.Skeleton
import Idealize.ShloMosaic.Lib.Pipeline.Value

noncomputable section

namespace Cert.Kernel.RS

open Cert.Kernel Cert.Kernel.Gen
open Idealize.ShloMosaic

variable {F : FTy → Type} [FloatOps F]

/-- The partner of device `c`: the other row of the mesh, the same column. -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide

/-- Both of the kernel's device chains (the signal's and the transfer's) name the partner. -/
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel

/-- The column half of the slab the PARTNER is responsible for (what is sent), -/
abbrev rSend (c : Dev nD) : Rect S1x256x512 := Rect.unit (s := S1x256x512) (k0_off1 c) S1x256x256.size (k0_off1_inb c)
/-- the half the device is responsible for itself (what is kept), -/
abbrev rKeep (c : Dev nD) : Rect S1x256x512 := Rect.unit (s := S1x256x512) (k0_off2 c) S1x256x256.size (k0_off2_inb c)
/-- and a whole 256 × 256 buffer. -/
abbrev rAll : Rect S256x256 := Rect.unit (s := S256x256) ![0, 0] S256x256.size inb_S256x256_S256x256_0_0

/-- What device `c` puts in its send buffer, from its slab `x`: the partner's half, narrowed. -/
def sendOf (c : Dev nD) (x : Vec F S1x256x512 .f32) : Vec F S256x256 .bf16 :=
  k0_pay2 (View.ld x (rSend c))

/-- What device `c` leaves as its result, from its slab `x` and what landed in its receive buffer: its own half plus that. -/
def outOf (c : Dev nD) (x : Vec F S1x256x512 .f32) (r : Vec F S256x256 .bf16) : Vec F S256x256 .f32 :=
  k0_pay1 (View.ld x (rKeep c)) r

end Cert.Kernel.RS

end
-- ==== Proof.ProtoW.lean ====
/-
  The cross-device protocol of the reduce-scatter, under the rounds discipline.

  Each device `c` has three cells, each with ONE round of ONE duty:
  * its barrier cell: one unit, paid by its partner's signal.  The unit tells `c` that the partner is inside the
    kernel, and hands it the partner's receive buffer (at whatever contents) together with the fact that the
    partner's receive cell is at its round 0 — what `c`'s transfer into that buffer needs;
  * its send cell: the buffer's credit, paid by `c`'s own transfer once the send buffer has been read; it hands
    back the send buffer, still holding what `c` narrowed into it (`sendVal c`);
  * its receive cell: the buffer's credit, paid by the PARTNER's transfer once it has landed; it hands `c` its
    receive buffer holding what the partner sent (`landed c = sendVal (peer c)`).
  A device owes, at launch, one unit to its partner's barrier cell and the buffer's credit to its partner's
  receive cell.  Levels: barrier cells below receive cells, so the barrier wait (still owing the transfer) is
  allowed; the two transfer waits come when nothing is owed.
-/
import proofs.«900292_g7700000000000293_dist_rs_v7x_xy2x2_x_m256_n256_bf16_1_alg».proof.Proof.ValsW
import proofs.«900292_g7700000000000293_dist_rs_v7x_xy2x2_x_m256_n256_bf16_1_alg».proof.Proof.Gen.Kernel.Launch
import proofs.«900292_g7700000000000293_dist_rs_v7x_xy2x2_x_m256_n256_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's staging cells, and the protocol's three cells per device -/

abbrev UX : Type := URounds (GSem nD τ sig) Unit
abbrev UA : Type := UR sig nD τ × UX

local notation "𝕄" => MT nD τ sig Unit (Elt F) ℕ UA ℕ

abbrev EP : Emb (UR sig nD τ) (MT nD τ sig Unit (Elt F) ℕ UA ℕ) := embL
abbrev EX : Emb UX (MT nD τ sig Unit (Elt F) ℕ UA ℕ) := embR

variable (m : (ℓ : Loc nD τ sig) → Buf (Elt F) ℓ) (ρ : Dev nD → PrngReg)

/-! ## Buffers and cells -/

abbrev xM : Memref sig .tc .vmem S1x256x512 .f32 := Memref.whole cc0_stg0_0
abbrev oM : Memref sig .tc .vmem S256x256 .f32 := Memref.whole cc0_stg1_0
abbrev sndM : Memref sig .tc .vmem S256x256 .bf16 := Memref.whole cc0_scratch0
abbrev rcvM : Memref sig .tc .vmem S256x256 .bf16 := Memref.whole cc0_scratch1

abbrev barS : Sem sig := (SemArray.scalar (sig.barrier 0 rfl) : Sems sig S_).sem
abbrev outS : DmaSems sig S_ := cc0_scratch2
abbrev inS : DmaSems sig S_ := cc0_scratch3

abbrev barC (c : Dev nD) : GSem nD τ sig := ((c : Thread nD τ), .reg barS)
abbrev outC (c : Dev nD) : GSem nD τ sig := ((c : Thread nD τ), .dma outS.sem)
abbrev inC (c : Dev nD) : GSem nD τ sig := ((c : Thread nD τ), .dma inS.sem)

/-- The kernel's own (scoped) semaphores as the launch indexes them, -/
abbrev osem : Fin 2 → SemLoc sig := fun | 0 => .dma outS.sem | 1 => .dma inS.sem
/-- and all three of a device's cells as this proof indexes them. -/
abbrev csem : Fin 3 → SemLoc sig := fun | 0 => .reg barS | 1 => .dma outS.sem | 2 => .dma inS.sem
abbrev kcell (ck : Dev nD × Fin 3) : GSem nD τ sig := ((ck.1 : Thread nD τ), csem ck.2)

/-- The credit of one whole 256 × 256 bf16 buffer. -/
abbrev N : ℕ := (rcvM : Memref sig .tc .vmem S256x256 .bf16).view.dmaCredit
theorem N_pos : 0 < N := View.dmaCredit_pos _ (by decide)

/-! ## Contents -/

/-- Device `c`'s slab of `x`, as the pipeline stages it. -/
def xstg (c : Dev nD) : (cc0_stg0_0 : Ref sig .tc).ty.Contents (Elt F) :=
  (win0_0.blk (0 : Fin 1)).view.read (Elt F) (m ((c : Thread nD τ).loc main_arg0))
/-- What device `c` narrows into its send buffer, -/
def sendVal (c : Dev nD) : (cc0_scratch0 : Ref sig .tc).ty.Contents (Elt F) := sendOf c (xstg m c)
/-- what lands in its receive buffer: what its partner sent, -/
def landed (c : Dev nD) : (cc0_scratch1 : Ref sig .tc).ty.Contents (Elt F) := sendVal m (peer c)
/-- and its result. -/
def outAt (c : Dev nD) : (cc0_stg1_0 : Ref sig .tc).ty.Contents (Elt F) := outOf c (xstg m c) (landed m c)

omit [FloatOps F] in
/-- A whole buffer written whole from a whole buffer holds what that one held. -/
theorem write_whole_eq (c : Dev nD) (fd : Buf (Elt F) ((rcvM : Memref sig .tc .vmem S256x256 .bf16).view.loc (c : Thread nD τ)))
    (fs : (cc0_scratch0 : Ref sig .tc).ty.Contents (Elt F)) :
    (rcvM : Memref sig .tc .vmem S256x256 .bf16).view.write (Elt F) fd ((sndM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- What the partner's signal hands the owner `d` of a barrier cell. -/
def barPay (d : Dev nD) : sProp 𝕄 :=
  iprop((∃ f : Buf (Elt F) (((peer d : Dev nD) : Thread nD τ).loc cc0_scratch1), (((peer d : Dev nD) : Thread nD τ).loc cc0_scratch1) ↦{fullShare} f)
    ∗ reached EX (inC (peer d)) 0)
def inPay (d : Dev nD) : sProp 𝕄 := (((d : Thread nD τ).loc cc0_scratch1) ↦{fullShare} landed m d)
def outPay (d : Dev nD) : sProp 𝕄 := (((d : Thread nD τ).loc cc0_scratch0) ↦{fullShare} sendVal m d)

abbrev IsCell (g : GSem nD τ sig) : Prop := g.1.2 = .tc ∧ (g.2 = .reg barS ∨ g.2 = .dma outS.sem ∨ g.2 = .dma inS.sem)

def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma inS.sem then inPay m g.1.1
    else if g.2 = .dma outS.sem then outPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma inS.sem then inPay m g.1.1
    else if g.2 = .dma outS.sem then outPay m g.1.1 else iprop(emp))
  unfold barPay inPay outPay
  (repeat' split) <;> infer_instance

section Tables
variable (c : Dev nD)

theorem out_ne_bar : (SemLoc.dma outS.sem : SemLoc sig) ≠ .reg barS := fun h => by cases h
theorem in_ne_bar : (SemLoc.dma inS.sem : SemLoc sig) ≠ .reg barS := fun h => by cases h
theorem out_ne_in : (SemLoc.dma outS.sem : SemLoc sig) ≠ .dma inS.sem := by decide
theorem in_ne_out : (SemLoc.dma inS.sem : SemLoc sig) ≠ .dma outS.sem := by decide

theorem duties_bar : (sched (F := F) m).duties (barC c) 0 = {()} := by dsimp only [sched]; exact if_pos ⟨rfl, rfl, .inl rfl⟩
theorem duties_out : (sched (F := F) m).duties (outC c) 0 = {()} := by dsimp only [sched]; exact if_pos ⟨rfl, rfl, .inr (.inl rfl)⟩
theorem duties_in : (sched (F := F) m).duties (inC c) 0 = {()} := by dsimp only [sched]; exact if_pos ⟨rfl, rfl, .inr (.inr rfl)⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barC c) 0 d = 1 := by dsimp only [sched]; exact if_pos rfl
theorem amount_out (d : Unit) : (sched (F := F) m).amount (outC c) 0 d = N := by dsimp only [sched]; exact if_neg out_ne_bar
theorem amount_in (d : Unit) : (sched (F := F) m).amount (inC c) 0 d = N := by dsimp only [sched]; exact if_neg in_ne_bar

theorem expect_bar : (sched (F := F) m).expect (barC c) 0 = 1 := by
  unfold Schedule.expect Schedule.amountOf; rw [duties_bar, Finset.sum_singleton, amount_bar]
theorem expect_out : (sched (F := F) m).expect (outC c) 0 = N := by
  unfold Schedule.expect Schedule.amountOf; rw [duties_out, Finset.sum_singleton, amount_out]
theorem expect_in : (sched (F := F) m).expect (inC c) 0 = N := by
  unfold Schedule.expect Schedule.amountOf; rw [duties_in, Finset.sum_singleton, amount_in]

theorem payload_bar (d : Unit) : (sched (F := F) m).payload (barC c) 0 d = barPay c := by dsimp only [sched]; rw [if_pos rfl]
theorem payload_out (d : Unit) : (sched (F := F) m).payload (outC c) 0 d = outPay m c := by
  dsimp only [sched]; rw [if_neg out_ne_bar, if_neg out_ne_in, if_pos rfl]
theorem payload_in (d : Unit) : (sched (F := F) m).payload (inC c) 0 d = inPay m c := by
  dsimp only [sched]; rw [if_neg in_ne_bar, if_pos rfl]

end Tables

/-! ## What a device owes at launch; the levels -/

def O₀ (c : Dev nD) : CellTallies nD τ sig Unit := tallyAt (inC (peer c)) () N + tallyAt (barC (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma inS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = inC (peer c) ∨ g = barC (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging wait (level 0) while owing what is owed at launch, or nothing. -/
theorem mayWait_stage (c : Dev nD) (q : DmaSem sig) (hq : SemLoc.dma q ≠ .dma inS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg in_ne_bar, if_pos rfl]; decide
        · dsimp only [lv]; rw [if_pos rfl]; decide)
  · rw [MayWait_zero]; iintro -; iempintro

omit [FloatOps F] in
/-- The barrier wait (level 1) while owing the partner's receive credit (level 2). -/
theorem mayWait_bar (c : Dev nD) :
    (levAts L lv : sProp 𝕄) ⊢ MayWait (c : Thread nD τ) (.reg barS) () (tallyAt (inC (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = inC (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = inC (peer c) ∧ u = ()
      · rw [h.1]; dsimp only [lv]; rw [if_neg in_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cell invariants device `c`'s body opens, at the names `K` the launch allocated them under: its own three, its
    partner's barrier cell (its signal) and its partner's receive cell (its transfer). -/
def invs (K : Dev nD × Fin 3 → ℕ) (c : Dev nD) : sProp 𝕄 :=
  iprop(cellInv EX (sched m) (K (c, 0)) (barC c) ∗ cellInv EX (sched m) (K (c, 1)) (outC c) ∗ cellInv EX (sched m) (K (c, 2)) (inC c)
    ∗ cellInv EX (sched m) (K (peer c, 0)) (barC (peer c)) ∗ cellInv EX (sched m) (K (peer c, 2)) (inC (peer c)))

instance invs_persistent (K : Dev nD × Fin 3 → ℕ) (c : Dev nD) : BI.Persistent (invs m K c) := by unfold invs; infer_instance

/-- The protocol's ghost state device `c` starts from: the invariants; its positions at round 0 of its three cells; round 0
    reached of the cells it pays and of its own receive cell (which its signal passes on); the three duty tokens it pays
    with — its partner's barrier duty, its partner's receive duty, its own send duty. -/
def ghost (K : Dev nD × Fin 3 → ℕ) (c : Dev nD) : sProp 𝕄 :=
  iprop(invs m K c
    ∗ atPos EX (barC c) 0 ∅ 0 ∗ atPos EX (outC c) 0 ∅ 0 ∗ atPos EX (inC c) 0 ∅ 0
    ∗ reached EX (barC (peer c)) 0 ∗ reached EX (inC (peer c)) 0 ∗ reached EX (outC c) 0 ∗ reached EX (inC c) 0
    ∗ dutyTok EX (barC (peer c)) 0 () ∗ dutyTok EX (inC (peer c)) 0 () ∗ dutyTok EX (outC c) 0 ())

/-- What device `c`'s body starts from: that at some names, its two launch credits and the level facts. -/
def start (c : Dev nD) : sProp 𝕄 :=
  iprop((∃ K, ghost m K c) ∗ cred (tallyAt (barC c) () 1) ∗ cred (tallyAt (inC c) () N) ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: both scratch buffers at their final contents, the two own cells closed at zero. -/
def Φ₁ (c : Dev nD) : sProp 𝕄 :=
  iprop((((c : Thread nD τ).loc cc0_scratch0) ↦{fullShare} sendVal m c) ∗ (((c : Thread nD τ).loc cc0_scratch1) ↦{fullShare} landed m c)
    ∗ semVal (outC c) 0 ∗ semVal (inC c) 0)

def dats (_ : Fin 1) (c : Dev nD) : Dat τ (Elt F) Unit ℕ UA ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.RS

end
-- ==== Proof.BodyW.lean ====
/-
  One device's body, run once at a symbolic device `c`.

  From the protocol's ghost state at round 0, both scratch buffers at whatever they hold, the slab staged and the
  result's staging buffer at whatever it holds: the device signals its partner's barrier cell (handing over its own
  receive buffer), waits for its own (receiving the partner's), narrows the partner's half of its slab into its send
  buffer, transfers that into the partner's receive buffer, waits until its send buffer has been read and its own
  receive buffer written, and stores its own half plus what landed.  It ends owing nothing, both scratch buffers at
  their named contents, its two own cells closed at zero.
-/
import proofs.«900292_g7700000000000293_dist_rs_v7x_xy2x2_x_m256_n256_bf16_1_alg».proof.Proof.ProtoW

noncomputable section

namespace Cert.Kernel.RS

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ)

/-! ## The schedule's tables as the stepping reads them: each payload spelt as the buffer it hands over -/

theorem landed_peer (c : Dev nD) : landed m (peer c) = sendVal m c := by unfold landed; rw [peer_peer]

set_option quotPrecheck false in
local notation "sndL" c => (View.loc ((c : Dev nD) : Thread nD τ) (Memref.view (Memref.whole cc0_scratch0 : Memref sig .tc .vmem S256x256 .bf16)))
set_option quotPrecheck false in
local notation "rcvL" c => (View.loc ((c : Dev nD) : Thread nD τ) (Memref.view (Memref.whole cc0_scratch1 : Memref sig .tc .vmem S256x256 .bf16)))
set_option quotPrecheck false in
local notation "xL" c => (View.loc ((c : Dev nD) : Thread nD τ) (Memref.view (Memref.whole cc0_stg0_0 : Memref sig .tc .vmem S1x256x512 .f32)))
set_option quotPrecheck false in
local notation "oL" c => (View.loc ((c : Dev nD) : Thread nD τ) (Memref.view (Memref.whole cc0_stg1_0 : Memref sig .tc .vmem S256x256 .f32)))

theorem pay_bar (c : Dev nD) (d : Unit) : (sched (F := F) m).payload (barC c) 0 d
    = iprop((∃ f : Buf (Elt F) (rcvL (peer c)), (rcvL (peer c)) ↦{fullShare} f) ∗ reached EX (inC (peer c)) 0) := by rw [payload_bar]; rfl
theorem pay_bar_peer (c : Dev nD) (d : Unit) : (sched (F := F) m).payload (barC (peer c)) 0 d
    = iprop((∃ f : Buf (Elt F) (rcvL c), (rcvL c) ↦{fullShare} f) ∗ reached EX (inC c) 0) := by
  rw [payload_bar]; unfold barPay; rw [peer_peer]
theorem pay_out (c : Dev nD) (d : Unit) : (sched (F := F) m).payload (outC c) 0 d
    = ((sndL c) ↦{fullShare} sendVal m c : sProp 𝕄) := by rw [payload_out]; rfl
theorem pay_in (c : Dev nD) (d : Unit) : (sched (F := F) m).payload (inC c) 0 d
    = ((rcvL c) ↦{fullShare} landed m c : sProp 𝕄) := by rw [payload_in]; rfl
theorem pay_in_peer (c : Dev nD) (d : Unit) : (sched (F := F) m).payload (inC (peer c)) 0 d
    = ((rcvL (peer c)) ↦{fullShare} sendVal m c : sProp 𝕄) := by
  rw [payload_in]; unfold inPay; rw [landed_peer]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem hz2 : (![0, 0] : Fin 2 → Nat) = fun _ => 0 := funext fun a => by fin_cases a <;> rfl

/-- One whole store into a whole 256 × 256 bf16 buffer leaves the stored value, whatever was there. -/
theorem snd_writes (f w : (cc0_scratch0 : Ref sig .tc).ty.Contents (Elt F)) :
    (Memref.whole cc0_scratch0 : Memref sig .tc .vmem S256x256 .bf16).view.writes (Elt F) f [⟨rAll, w⟩] = w := by
  rw [View.writes_singleton]; exact Memref.write_access_unit_zero_univ (Elt F) cc0_scratch0 hz2 _ f w
theorem out_writes (f w : (cc0_stg1_0 : Ref sig .tc).ty.Contents (Elt F)) :
    (Memref.whole cc0_stg1_0 : Memref sig .tc .vmem S256x256 .f32).view.writes (Elt F) f [⟨rAll, w⟩] = w := by
  rw [View.writes_singleton]; exact Memref.write_access_unit_zero_univ (Elt F) cc0_stg1_0 hz2 _ f w
omit [FloatOps F] in
theorem rcv_read (f : (cc0_scratch1 : Ref sig .tc).ty.Contents (Elt F)) :
    (Memref.whole cc0_scratch1 : Memref sig .tc .vmem S256x256 .bf16).view.readAt (Elt F) rAll.toLoadRect f = f :=
  Memref.readAt_unit_zero (Elt F) cc0_scratch1 hz2 _ f

/-- The send buffer after the narrowing store holds `sendVal`; -/
theorem snd_named (c : Dev nD) (f : (cc0_scratch0 : Ref sig .tc).ty.Contents (Elt F)) :
    (Memref.whole cc0_scratch0 : Memref sig .tc .vmem S256x256 .bf16).view.writes (Elt F) f
        [⟨rAll, k0_pay2 ((Memref.whole cc0_stg0_0 : Memref sig .tc .vmem S1x256x512 .f32).view.readAt (Elt F) (rSend c).toLoadRect (xstg m c))⟩]
      = sendVal m c := by
  rw [snd_writes]; rfl
/-- the result's staging buffer after the final store holds `outAt`. -/
theorem out_named (c : Dev nD) (f : (cc0_stg1_0 : Ref sig .tc).ty.Contents (Elt F)) :
    (Memref.whole cc0_stg1_0 : Memref sig .tc .vmem S256x256 .f32).view.writes (Elt F) f
        [⟨rAll, k0_pay1 ((Memref.whole cc0_stg0_0 : Memref sig .tc .vmem S1x256x512 .f32).view.readAt (Elt F) (rKeep c).toLoadRect (xstg m c))
          ((Memref.whole cc0_scratch1 : Memref sig .tc .vmem S256x256 .bf16).view.readAt (Elt F) rAll.toLoadRect (landed m c))⟩]
      = outAt m c := by
  rw [out_writes, rcv_read]; rfl

section Body

variable (K : Dev nD × Fin 3 → ℕ)

def bodyPre (c : Dev nD) : sProp 𝕄 :=
  iprop((ghost m K c ∗ cred (tallyAt (barC c) () 1) ∗ cred (tallyAt (inC c) () N) ∗ levAts L lv
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

attribute [local sl_rounds] duties_bar duties_out duties_in amount_bar amount_out amount_in expect_bar expect_out expect_in
  pay_bar pay_out pay_in
attribute [local sl_rounds high] pay_bar_peer pay_in_peer
attribute [local sl_canon] dev1_eq dev2_eq

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre ghost invs
  iintro ⟨⟨⟨⟨⟨#HIbar, #HIout, #HIin, #HIbarP, #HIinP⟩, HatB, HatO, HatI, #HrBP, #HrIP, #HrO, #HrI, HtBP, HtIP, HtO⟩, HcB, HcI, #Hlev, ⟨%fs0, Hsnd⟩, ⟨%fr0, Hrcv⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  have hmwB := mayWait_bar (F := F) c
  ihave Hsnd := (Entails.of_eq (show (((c : Thread nD τ).loc cc0_scratch0) ↦{fullShare} fs0 : sProp 𝕄) = ((sndL c) ↦{fullShare} fs0) from rfl)) $$ Hsnd
  ihave Hrcv := (Entails.of_eq (show (((c : Thread nD τ).loc cc0_scratch1) ↦{fullShare} fr0 : sProp 𝕄) = ((rcvL c) ↦{fullShare} fr0) from rfl)) $$ Hrcv
  ihave Hx := (Entails.of_eq (show (((c : Thread nD τ).loc cc0_stg0_0) ↦{fullShare} xstg m c : sProp 𝕄) = ((xL c) ↦{fullShare} xstg m c) from rfl)) $$ Hx
  ihave Hout := (Entails.of_eq (show (((c : Thread nD τ).loc cc0_stg1_0) ↦{fullShare} g1 : sProp 𝕄) = ((oL c) ↦{fullShare} g1) from rfl)) $$ Hout
  sl_unfold [cc0_body]
  sl_exec
  -- the send buffer now holds the narrowed half: name it, so that the transfer's two payloads are the schedule's
  ihave Hsnd := (Entails.of_eq (congrArg (fun v => ((sndL c) ↦{fullShare} v : sProp 𝕄)) (snd_named m c fs0))) $$ Hsnd
  sl_exec (disch := simp only [dev2_eq])
  -- both own cells are past their only round, nothing taken and nothing pending: closed, their counters at zero
  imod (Rounds.cell_close EX (sched m) (Set.mem_univ (K (c, 1))) (fun h => h) (R := 1) (duties_later m (outC c))) $$ [HatO] with HzO
  · isplitr; · iexact HIout
    iexact HatO
  imod (Rounds.cell_close EX (sched m) (Set.mem_univ (K (c, 2))) (fun h => h) (R := 1) (duties_later m (inC c))) $$ [HatI] with HzI
  · isplitr; · iexact HIin
    iexact HatI
  -- the result's staging buffer holds the device's own half plus what landed
  ihave Hout := (Entails.of_eq (congrArg (fun v => ((oL c) ↦{fullShare} v : sProp 𝕄)) (out_named m c g1))) $$ Hout
  sl_step
  iapply Hk
  unfold bodyPost Φ₁
  isplitl [HatO_pay1 HatI_pay1 HzO HzI]
  · isplitl [HatO_pay1]; · iexact HatO_pay1
    isplitl [HatI_pay1]; · iexact HatI_pay1
    isplitl [HzO]; · iexact HzO
    iexact HzI
  isplitl [HO]
  · unfold Dat.owesAt Pipeline.owesWithin
    iexists (insert (SemLoc.dma inS.sem, ()) (insert (SemLoc.dma outS.sem, ()) (insert (SemLoc.reg barS, ()) W)))
    isplitr; · ipureintro; exact fun _ _ => Or.inl (Set.mem_univ _)
    iexact HO
  isplitl [Hx]
  · iexists _; isplitr; · (ipureintro; rfl)
    iexact Hx
  iexists _; isplitr; · (ipureintro; rfl)
  iexact Hout

end Body

/-! ## The body in the launch theorem's form -/

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device `c`, at its one grid point. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m c)
  unfold bodyPre' Φ₀ start
  iintro ⟨⟨⟨⟨%K, Hg⟩, Hc1, Hc2, Hlev⟩, Hs, Hr⟩, Ho, Hx, Hout⟩
  iapply (sound_body m K c fun _ => bodyPost m c)
  unfold bodyPre
  isplitr []
  · isplitl [Hg Hc1 Hc2 Hlev Hs Hr]
    · isplitl [Hg]; · iexact Hg
      isplitl [Hc1]; · iexact Hc1
      isplitl [Hc2]; · iexact Hc2
      isplitl [Hlev]; · iexact Hlev
      isplitl [Hs]; · iexact Hs
      iexact Hr
    isplitl [Ho]; · iexact Ho
    isplitl [Hx] <;> iassumption
  · iintro H; iexact H

/-- info: 'Cert.Kernel.RS.body_obligation' depends on axioms: [propext, Classical.choice, Quot.sound] -/
#guard_msgs in #print axioms body_obligation

end Cert.Kernel.RS

end
-- ==== Proof.LaunchW.lean ====
/-
  The launch: from each device's body to the run of the whole mesh.

  The protocol's ghost state is dealt at launch for all four devices at once: every cell at round 0 with its duty
  token, the three cell invariants of every device allocated under one update (a device's barrier and receive cells
  are paid by its PARTNER, so their invariants are shared), and the tokens dealt to the devices that pay them — a
  barrier's and a receive cell's token to the partner, a send cell's to its owner.  The launch credit is what the
  others owe a device's cells: one unit on its barrier cell and one buffer's credit on its receive cell, both from
  its partner.  Every fair run of the four devices then ends, with each device's result array holding its own half
  of its slab plus its partner's narrowed half, and its slab of `x` as it was.
-/
import proofs.«900292_g7700000000000293_dist_rs_v7x_xy2x2_x_m256_n256_bf16_1_alg».proof.Proof.BodyW

noncomputable section

namespace Cert.Kernel.RS

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-- The partner map as a permutation of the devices. -/
def pairing : Dev nD ≃ Dev nD := ⟨peer, peer, peer_peer, peer_peer⟩

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def allCells : Finset (GSem nD τ sig) := Finset.univ.map ⟨kcell, kcell_injective⟩

/-- Each cell's one duty token as minted: (device, which cell). -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def allToks : Finset (GSem nD τ sig × ℕ × Unit) := Finset.univ.map ⟨tokOf, tokOf_injective⟩

def u₀ : UA :=
  (initOf (Pipeline.cells cfgs cellOf_inj) (Pipeline.launchToks cfgs cellOf_inj), initOf allCells allToks)

/-- The duty tokens of device `c`'s own cells. -/
def toks (c : Dev nD) : sProp 𝕄 :=
  iprop(dutyTok EX (barC c) 0 () ∗ dutyTok EX (outC c) 0 () ∗ dutyTok EX (inC c) 0 ())

/-- What the launch element deals device `c`. -/
def G (c : Dev nD) : sProp 𝕄 :=
  iprop((bigSep Finset.univ fun k : Fin 3 => roundState EX (sched m) (kcell (c, k)) 0)
    ∗ (bigSep Finset.univ fun k : Fin 3 => iprop(atPos EX (kcell (c, k)) 0 ∅ 0 ∗ reached EX (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_cells : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 3 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    exact bigSep_congr fun c _ => by unfold toks; rw [bigSep_fin3]; rfl
  iintro HX
  imod (Rounds.fund EX (sched m) allCells allToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UA) (Lvl := ℕ) (Val := Elt F) (τ := τ) osem c : sProp 𝕄)
    = iprop(semVal (outC c) 0 ∗ semVal (inC c) 0) := by
  rw [Pipeline.ownSems0_eq_of_list c osem [0, 1] (by decide) (by decide)]; rfl
omit [FloatOps F] in
/-- the barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UA) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UA) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv EX (sched m) (K ck) (kcell ck))
    ∗ bigSep Finset.univ fun ck : Dev nD × Fin 3 => reached EX (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv EX (sched m) (K ck) (kcell ck) : sProp 𝕄)) ⊢ cellInv EX (sched m) (K ck) (kcell ck) :=
  bigSep_elim (Finset.mem_univ ck)
omit [FloatOps F] in
theorem reached_at (ck : Dev nD × Fin 3) :
    (bigSep Finset.univ fun ck : Dev nD × Fin 3 => (reached EX (kcell ck) 0 : sProp 𝕄)) ⊢ reached EX (kcell ck) 0 :=
  bigSep_elim (Finset.mem_univ ck)

/-- What stays with device `c`: its positions, and the tokens of the duties IT pays. -/
def payToks (c : Dev nD) : sProp 𝕄 :=
  iprop(dutyTok EX (barC (peer c)) 0 () ∗ dutyTok EX (inC (peer c)) 0 () ∗ dutyTok EX (outC c) 0 ())
def linear (c : Dev nD) : sProp 𝕄 :=
  iprop((atPos EX (barC c) 0 ∅ 0 ∗ atPos EX (outC c) 0 ∅ 0 ∗ atPos EX (inC c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaO, HaI⟩, HtBP, HtIP, HtO⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaO]; · iexact HaO
  isplitl [HaI]; · iexact HaI
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtIP]; · iexact HtIP
  iexact HtO

omit [FloatOps F] in
/-- The tokens dealt to their payers: a barrier's and a receive cell's token to the partner, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok EX (barC c) 0 () : sProp 𝕄)),
    bigSep_univ_equiv pairing (fun c : Dev nD => (dutyTok EX (inC c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv EX (sched m) κ (kcell ck))),
    bigSep_congr (s := Finset.univ) (fun (c : Dev nD) _ => bigSep_sep' Finset.univ (fun k : Fin 3 => (atPos EX (kcell (c, k)) 0 ∅ 0 : sProp 𝕄)) (fun k => reached EX (kcell (c, k)) 0)),
    bigSep_sep', ← bigSep_univ_prod (fun ck : Dev nD × Fin 3 => (reached EX (kcell ck) 0 : sProp 𝕄))]
  iintro ⟨HI, ⟨Hat, #HR⟩, Htok⟩
  ihave HK := (BI.bigSep_exists_pi Finset.univ (fun (ck : Dev nD × Fin 3) (κ : ℕ) => (cellInv EX (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos EX (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UA) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barC a = barC b) (a = b) :=
  ⟨fun h => Fin.ext (congrArg (fun g : GSem nD τ sig => g.1.1.val) h), fun h => h ▸ rfl⟩
omit [FloatOps F] in
theorem in_eq_iff {a b : Dev nD} : Iff (inC a = inC b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barC c) () = if d = peer c then 1 else 0 := by
  unfold O₀
  rw [Pi.add_apply, Finsupp.add_apply, tallyAt_ne_cell (fun h => in_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

omit [FloatOps F] in
/-- What device `d` owes device `c`'s receive cell: the buffer's credit if it is `c`'s partner. -/
theorem owed_in (d c : Dev nD) : O₀ d (inC c) () = if d = peer c then N else 0 := by
  unfold O₀
  rw [Pi.add_apply, Finsupp.add_apply, tallyAt_apply, tallyAt_ne_cell (fun h => in_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [in_eq_iff.mp h1, peer_peer])), if_neg h]

omit [FloatOps F] in
theorem launch_bar (c : Dev nD) :
    tallyOn (barC c) (launchCredit (Pipeline.owing O₀) 0 (barC c)) = (tallyAt (barC c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_in (c : Dev nD) :
    tallyOn (inC c) (launchCredit (Pipeline.owing O₀) 0 (inC c)) = (tallyAt (inC c) () N : CellTallies nD τ sig Unit) := by
  unfold tallyAt; refine congrArg _ (Finsupp.ext fun u => ?_); cases u
  rw [Pipeline.launchCredit_owing, Finsupp.single_eq_same, Finset.sum_congr rfl fun d _ => owed_in d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barC c) () 1) ∗ cred (tallyAt (inC c) () N)) := by
  unfold Pipeline.launchCred
  rw [bigSep_univ_at _ (SemLoc.reg barS), launch_bar]
  refine sep_mono_right ?_
  rw [← launch_in]
  exact bigSep_elim (Finset.mem_erase.mpr ⟨in_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hsn⟩, ⟨%f', Hrc⟩⟩
  isplitl [Hs]; · iexact Hs
  isplitl [Hsn]
  · iexists f; iexact Hsn
  · iexists f'; iexact Hrc

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hsn, Hrc, HzO, HzI⟩
  isplitr; · iempintro
  isplitl [HzO HzI]
  · isplitl [HzO] <;> iassumption
  isplitl [Hsn]
  · iexists (sendVal m c); iexact Hsn
  · iexists (landed m c); iexact Hrc

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main — the two pairs of partners handshaking on the barrier semaphore, then exchanging their narrowed
    halves — terminates, nothing faulting, and every final state has each device's two arrays at the proof data's final
    contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.RS.run_main' depends on axioms: [propext, Classical.choice, Quot.sound] -/
#guard_msgs in #print axioms run_main

end Cert.Kernel.RS

end
-- ==== Proof.FinalW.lean ====
/-
  What the run leaves in each device's two arrays.

  Each array is one block, the whole array, at the one grid point.  The slab of `x` is never written back: it ends
  as it began.  The result array is written back once, with what the body left in its staging buffer: the device's own
  half of its slab plus its partner's narrowed half (`outAt`).  And the staged slab is the array itself.
-/
import proofs.«900292_g7700000000000293_dist_rs_v7x_xy2x2_x_m256_n256_bf16_1_alg».proof.Proof.LaunchW

noncomputable section

namespace Cert.Kernel.RS

open Cert.Kernel Cert.Kernel.Gen

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

omit [FloatOps F] in
/-- The slab as staged is the slab: the window's one block is the whole array. -/
theorem xstg_eq (c : Dev nD) : xstg m c = m ((c : Thread nD τ).loc main_arg0) := by
  have hz0 : (fun a => (win0_0.index (0 : Fin 1)) a * (main_arg0 : Ref sig .tc).ty.shape.size a) = fun _ => 0 :=
    funext fun a => by fin_cases a <;> decide
  exact Memref.read_access_unit_zero (Elt F) main_arg0 hz0 (fun a => by fin_cases a <;> decide) _

/-- The slab's array after the run holds what it held. -/
theorem finalA_x (c : Dev nD) : finalA m c (0 : Fin 2) = m (win0_0.arr.view.loc (c : Thread nD τ)) :=
  (dats (F := F) m 0 c).arrAt_in (0 : Fin 2) rfl _

/-- The result's array after the run holds `outAt`: the one write-back writes the whole array. -/
theorem finalA_out (c : Dev nD) : finalA m c (1 : Fin 2) = outAt m c := by
  have hz : (fun a => (win0_1.index (0 : Fin 1)) a * (main_v1 : Ref sig .tc).ty.shape.size a) = fun _ => 0 :=
    funext fun a => by fin_cases a <;> decide
  have hr := fun f => Memref.read_access_unit_zero (Elt F) main_v1 hz (fun a => by fin_cases a <;> decide) f
  have hs : finalA m c (1 : Fin 2)
      = ((cfg0.win (1 : Fin 2)).blk t₀).view.write (Elt F) ((dats m 0 c).arrAt (1 : Fin 2) t₀.val) ((dats m 0 c).flushed (1 : Fin 2) t₀) Finset.univ := by
    show (dats m 0 c).arrAt (1 : Fin 2) (t₀.val + 1) = _
    rw [Dat.arrAt_succ, if_pos (flush0_1 t₀)]
  have h1 := View.read_write_univ (v := ((cfg0.win (1 : Fin 2)).blk t₀).view) ((dats m 0 c).arrAt (1 : Fin 2) t₀.val) ((dats m 0 c).flushed (1 : Fin 2) t₀)
  rw [← hs] at h1
  exact (hr (finalA m c (1 : Fin 2))).symm.trans h1

/-- Every fair run of the mesh ends, each device's result array at `outAt` and its slab as it was. -/
theorem run_named : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)) :=
  (θ_run defs _ _).mono (fun r h c => ⟨(h c (1 : Fin 2)).trans (finalA_out m c), (h c (0 : Fin 2)).trans (finalA_x m c)⟩) (run_main m ρ)

/-- info: 'Cert.Kernel.RS.run_named' depends on axioms: [propext, Classical.choice, Quot.sound] -/
#guard_msgs in #print axioms run_named

end Cert.Kernel.RS

end
-- ==== Proof.ValueBridge.lean ====
/-
  The reduce-scatter's value equation at the ideal instance.

  `x : f32[2, 256, 512]` is cut along its first axis over the rows of the 2 × 2 mesh: device `c` (row `c / 2`,
  column `c % 2`) holds the slab `x[c / 2]`.  It keeps columns `256 * (c / 2) + q` of its slab and receives from its
  partner (the other row, the same column) the same columns of the partner's slab `x[1 - c / 2]`; at the ideal
  instance narrowing and widening are the identity, so at `(p, q)` the result is
  `x[c / 2, p, 256 * (c / 2) + q] + x[1 - c / 2, p, 256 * (c / 2) + q]`.  The reference sums `x` over its first axis
  from the initial value `0`: `0 + (x[0, p, j] + x[1, p, j])`, and device `c`'s block of it is the column block
  `c / 2`, that is `j = 256 * (c / 2) + q`.  The two agree by `zero_add` and commutativity of `+` on the extended
  reals (no finiteness is needed).

  Each step is a small lemma at explicit coordinates: a slab and a column block at an index (`slab_apply`,
  `colBlock_apply`), the two loads through their rectangles (`keep_apply`, `send_ld_apply`), the shape cast that
  drops the unit axis (`dropUnit_apply`), the two payloads (`sendOf_apply`, `outOf_apply`), the reference
  (`ref_apply`), and the two row blocks in either order (`rows_add`).
-/
import proofs.«900292_g7700000000000293_dist_rs_v7x_xy2x2_x_m256_n256_bf16_1_alg».proof.Proof.Vals
import proofs.«900292_g7700000000000293_dist_rs_v7x_xy2x2_x_m256_n256_bf16_1_alg».proof.Proof.Gen.ReferenceIdeal.Read
import Idealize.ShloMosaic.Lib.Layout
import Idealize.ShloMosaic.Lib.ValueIdx
import Idealize.ShloMosaic.PureOps.Ideal.Laws

noncomputable section

namespace Cert.KernelIdeal.RS

open Cert.KernelIdeal Cert.KernelIdeal.Gen
open Idealize.ShloMosaic Idealize.ShloMosaic.ValueIdx

/-- On the 2 × 2 mesh, a dimension cut along the row axis gives device `c` block `c / 2`; an uncut one block `0`. -/
theorem rowBlock_val : ∀ c : Dev nD, Layout.meshLin [2, 2] c.val [0] = c.val / 2 := by decide
theorem noBlock_val (c : Nat) : Layout.meshLin [2, 2] c [] = 0 := rfl

/-- The partner sits in the other row. -/
theorem peer_row : ∀ c : Dev nD, (peer c).val / 2 = 1 - c.val / 2 := by decide

theorem row_lt (c : Dev nD) : c.val / 2 < 2 := by have : c.val < 4 := c.isLt; omega

/-- Device `c`'s slab of `X` at an index: row-block `c / 2`. -/
theorem slab_apply (X : (⟨Cert.ReferenceIdeal.S2x256x512, .f32⟩ : BufTy).Contents (Elt Ideal)) (c : Dev nD)
    (a : Fin 1) (r : Fin 256) (j : Fin 512) :
    (Layout.blockN ⟨3, ![1, 256, 512]⟩ ⟨3, ![2, 256, 512]⟩ (Layout.meshBlock [2, 2] ![[0], [], []] c) X) (ix3 a r j)
      = X (ix3 (⟨c.val / 2, row_lt c⟩ : Fin 2) r j) := by
  rw [Layout.blockN_apply]
  refine congrArg X (funext fun b => Fin.ext ?_)
  rw [Layout.TilesN.idx_val]
  match b with
  | ⟨0, _⟩ =>
    show Layout.meshLin [2, 2] c.val [0] * 1 + a.val = c.val / 2
    rw [rowBlock_val]; omega
  | ⟨1, _⟩ =>
    show Layout.meshLin [2, 2] c.val [] * 256 + r.val = r.val
    rw [noBlock_val]; omega
  | ⟨2, _⟩ =>
    show Layout.meshLin [2, 2] c.val [] * 512 + j.val = j.val
    rw [noBlock_val]; omega

/-- Dropping the leading unit axis: the 256 × 256 view at `(p, q)` reads the 1 × 256 × 256 vector at `(0, p, q)`. -/
theorem dropUnit_apply {α : Type} (v : S1x256x256.Idx → α) (p q : Fin 256) :
    shapeCast S256x256 v shapeCasts_S1x256x256_S256x256 (ix2 p q) = v (ix3 (0 : Fin 1) p q) := by
  refine shapeCast_apply v _ (ix2 p q) (ix3 (0 : Fin 1) p q) ?_
  rw [Shape.rowMajor_val_three, Shape.rowMajor_val_two]
  show (0 * 256 + p.val) * 256 + q.val = p.val * 256 + q.val
  omega

/-- The half a device keeps, at an index: columns `256 * (c / 2) + q` of its slab. -/
theorem keep_apply (x : Vec Ideal S1x256x512 .f32) (c : Dev nD) (p q : Fin 256) :
    View.ld x (rKeep c) (ix3 (0 : Fin 1) p q)
      = x (ix3 (0 : Fin 1) p (⟨256 * (c.val / 2) + q.val, by have := row_lt c; omega⟩ : Fin 512)) := by
  refine congrArg x (funext fun b => Fin.ext ?_)
  rw [LoadRect.idx_apply]
  show k0_off2 c b + 1 * (ix3 (0 : Fin 1) p q b).val = _
  rw [k0_off2_eq]
  match b with
  | ⟨0, _⟩ => rfl
  | ⟨1, _⟩ => show 0 + 1 * p.val = p.val; omega
  | ⟨2, _⟩ => show 256 * (c.val / 2) + 1 * q.val = 256 * (c.val / 2) + q.val; omega

/-- The half a device sends, at an index: columns `256 - 256 * (c / 2) + q` of its slab. -/
theorem send_ld_apply (x : Vec Ideal S1x256x512 .f32) (c : Dev nD) (p q : Fin 256) :
    View.ld x (rSend c) (ix3 (0 : Fin 1) p q)
      = x (ix3 (0 : Fin 1) p (⟨256 - 256 * (c.val / 2) + q.val, by have := row_lt c; omega⟩ : Fin 512)) := by
  refine congrArg x (funext fun b => Fin.ext ?_)
  rw [LoadRect.idx_apply]
  show k0_off1 c b + 1 * (ix3 (0 : Fin 1) p q b).val = _
  rw [k0_off1_eq]
  match b with
  | ⟨0, _⟩ => rfl
  | ⟨1, _⟩ => show 0 + 1 * p.val = p.val; omega
  | ⟨2, _⟩ => show 256 - 256 * (c.val / 2) + 1 * q.val = 256 - 256 * (c.val / 2) + q.val; omega

/-- What device `c` sends, at an index (the narrowing is the identity on extended reals). -/
theorem sendOf_apply (x : Vec Ideal S1x256x512 .f32) (c : Dev nD) (p q : Fin 256) :
    sendOf (F := Ideal) c x (ix2 p q)
      = x (ix3 (0 : Fin 1) p (⟨256 - 256 * (c.val / 2) + q.val, by have := row_lt c; omega⟩ : Fin 512)) := by
  unfold sendOf k0_pay2
  show shapeCast S256x256 (truncf (F := Ideal) .bf16
        (shapeCast S256x256 (View.ld x (rSend c) : FVec Ideal S1x256x256 .f32) shapeCasts_S1x256x256_S256x256) bitsLt_bf16_f32)
      shapeCasts_S256x256_S256x256 (ix2 p q) = _
  rw [shapeCast_self, truncf_apply, dropUnit_apply, send_ld_apply]

/-- What device `c` leaves, at an index: its own half plus what it received. -/
theorem outOf_apply (x : Vec Ideal S1x256x512 .f32) (r : FVec Ideal S256x256 .bf16) (c : Dev nD) (p q : Fin 256) :
    outOf (F := Ideal) c x r (ix2 p q)
      = x (ix3 (0 : Fin 1) p (⟨256 * (c.val / 2) + q.val, by have := row_lt c; omega⟩ : Fin 512)) + r (ix2 p q) := by
  unfold outOf k0_pay1
  show addf (F := Ideal) (shapeCast S256x256 (View.ld x (rKeep c) : FVec Ideal S1x256x256 .f32) shapeCasts_S1x256x256_S256x256)
      (extf (F := Ideal) .f32 r bitsLt_bf16_f32) (ix2 p q) = _
  rw [addf_apply, extf_apply, dropUnit_apply, keep_apply]

/-- Column block `c / 2` of a 256 × 512 array at an index: column `256 * (c / 2) + q`. -/
theorem colBlock_apply {α : Type} (V : (⟨2, ![256, 512]⟩ : Shape).Idx → α) (c : Dev nD) (p q : Fin 256) :
    (Layout.blockN ⟨2, ![256, 256]⟩ ⟨2, ![256, 512]⟩ (Layout.meshBlock [2, 2] ![[], [0]] c) V) (ix2 p q)
      = V (ix2 p (⟨256 * (c.val / 2) + q.val, by have := row_lt c; omega⟩ : Fin 512)) := by
  rw [Layout.blockN_apply]
  refine congrArg V (funext fun b => Fin.ext ?_)
  rw [Layout.TilesN.idx_val]
  match b with
  | ⟨0, _⟩ =>
    show Layout.meshLin [2, 2] c.val [] * 256 + p.val = p.val
    rw [noBlock_val]; omega
  | ⟨1, _⟩ =>
    show Layout.meshLin [2, 2] c.val [0] * 256 + q.val = 256 * (c.val / 2) + q.val
    rw [rowBlock_val]; omega

/-- The reference at an index: the sum over the two row blocks (its initial value is the extended real `0`). -/
theorem ref_apply (X : (⟨Cert.ReferenceIdeal.S2x256x512, .f32⟩ : BufTy).Contents (Elt Ideal)) (p : Fin 256) (j : Fin 512) :
    Cert.ReferenceIdeal.Read.val_main_v0 (F := Ideal) X (ix2 p j)
      = X (ix3 (0 : Fin 2) p j) + X (ix3 (1 : Fin 2) p j) := by
  rw [Cert.ReferenceIdeal.Read.val_main_v0_apply, Fin.sum_univ_two, Cert.ReferenceIdeal.Read.val_main_cst_apply]
  show Ideal.ofBits .f32 0x00000000#32 + _ = _
  rw [Ideal.ofBits_zero_f32, zero_add]
  have e0 : Cert.ReferenceIdeal.Read.idx_main_v0 (ix2 p j) 0 = ix3 (0 : Fin 2) p j := by
    funext a; match a with | ⟨0, _⟩ => rfl | ⟨1, _⟩ => rfl | ⟨2, _⟩ => rfl
  have e1 : Cert.ReferenceIdeal.Read.idx_main_v0 (ix2 p j) 1 = ix3 (1 : Fin 2) p j := by
    funext a; match a with | ⟨0, _⟩ => rfl | ⟨1, _⟩ => rfl | ⟨2, _⟩ => rfl
  rw [e0, e1]

/-- The two row blocks of `X`, in either order, at row-block coordinate `k` and the other one. -/
theorem rows_add (X : (⟨Cert.ReferenceIdeal.S2x256x512, .f32⟩ : BufTy).Contents (Elt Ideal)) (p : Fin 256) (j : Fin 512)
    (k k' : Fin 2) (h : k'.val = 1 - k.val) :
    X (ix3 k p j) + X (ix3 k' p j) = X (ix3 (0 : Fin 2) p j) + X (ix3 (1 : Fin 2) p j) := by
  have hk : k = 0 ∨ k = 1 := by omega
  rcases hk with rfl | rfl
  · have : k' = 1 := Fin.ext (by simpa using h)
    rw [this]
  · have : k' = 0 := Fin.ext (by simpa using h)
    rw [this, add_comm]

theorem out_eq_block (X : (⟨Cert.ReferenceIdeal.S2x256x512, .f32⟩ : BufTy).Contents (Elt Ideal)) (c : Dev nD) :
    outOf (F := Ideal) c
        (Layout.blockN ⟨3, ![1, 256, 512]⟩ ⟨3, ![2, 256, 512]⟩ (Layout.meshBlock [2, 2] ![[0], [], []] c) X)
        (sendOf (F := Ideal) (peer c)
          (Layout.blockN ⟨3, ![1, 256, 512]⟩ ⟨3, ![2, 256, 512]⟩ (Layout.meshBlock [2, 2] ![[0], [], []] (peer c)) X))
      = Layout.blockN ⟨2, ![256, 256]⟩ ⟨2, ![256, 512]⟩ (Layout.meshBlock [2, 2] ![[], [0]] c)
          (Cert.ReferenceIdeal.Read.val_main_v0 (F := Ideal) X) := by
  funext i
  obtain ⟨p, q, rfl⟩ : ∃ (p : Fin 256) (q : Fin 256), i = ValueIdx.ix2 p q := ⟨i 0, i 1, ValueIdx.eq_ix2 i⟩
  rw [outOf_apply, sendOf_apply, slab_apply, slab_apply, colBlock_apply, ref_apply]
  have hcol : (⟨256 - 256 * ((peer c).val / 2) + q.val, by have := row_lt (peer c); omega⟩ : Fin 512)
      = ⟨256 * (c.val / 2) + q.val, by have := row_lt c; omega⟩ :=
    Fin.ext (by have := peer_row c; have := row_lt c; show 256 - 256 * ((peer c).val / 2) + q.val = 256 * (c.val / 2) + q.val; omega)
  rw [hcol]
  exact rows_add X p _ _ _ (peer_row c)

/-- info: 'Cert.KernelIdeal.RS.out_eq_block' depends on axioms: [propext, Classical.choice, Quot.sound] -/
#guard_msgs in #print axioms out_eq_block

end Cert.KernelIdeal.RS

end
-- ==== Proof.lean ====
/-
  A reduce-scatter over the rows of a 2 × 2 mesh, against the sum over the first axis on one device.

  `x : f32[2, 256, 512]` is cut along its first axis over the mesh's rows: device `c` (row `c / 2`, column `c % 2`)
  holds the slab `x[c / 2]`.  The result `x[0] + x[1] : f32[256, 512]` is cut along its columns over the rows: device `c`
  must end with columns `256 (c / 2) …` of it.  Each device handshakes with its partner (the other row, the same column)
  on the barrier semaphore, sends it the column half the partner is responsible for (narrowed to bf16), receives the
  half it is responsible for itself, and adds its own.

  The three frames: every fair run of the four devices terminates and leaves the slabs as they were — the run of the
  mesh from each device's body, at the word-level instance and at the ideal one (Proof/Launch.lean, Proof/Final.lean and
  their word-level twins); the reference's from its generated run.  `preserves` has no conjunct: the idealization is
  the program's own text.  `algebraic`: at the ideal instance narrowing and widening are the identity, so device `c`
  ends with `x[c / 2] + x[1 - c / 2]` on its columns, the reference with `0 + (x[0] + x[1])`; they agree by
  commutativity of `+` on the extended reals, with no use of finiteness (Proof/ValueBridge.lean).
-/
import proofs.«900292_g7700000000000293_dist_rs_v7x_xy2x2_x_m256_n256_bf16_1_alg».proof.Defs
import proofs.«900292_g7700000000000293_dist_rs_v7x_xy2x2_x_m256_n256_bf16_1_alg».proof.Proof.Gen.Kernel
import proofs.«900292_g7700000000000293_dist_rs_v7x_xy2x2_x_m256_n256_bf16_1_alg».proof.Proof.Gen.KernelIdeal
import proofs.«900292_g7700000000000293_dist_rs_v7x_xy2x2_x_m256_n256_bf16_1_alg».proof.Proof.Gen.ReferenceIdeal
import proofs.«900292_g7700000000000293_dist_rs_v7x_xy2x2_x_m256_n256_bf16_1_alg».proof.Proof.Gen.ReferenceIdeal.Run
import proofs.«900292_g7700000000000293_dist_rs_v7x_xy2x2_x_m256_n256_bf16_1_alg».proof.Proof.Gen.ReferenceIdeal.Read
import proofs.«900292_g7700000000000293_dist_rs_v7x_xy2x2_x_m256_n256_bf16_1_alg».proof.Proof.Gen.Pre_finite_inputs_Kernel
import proofs.«900292_g7700000000000293_dist_rs_v7x_xy2x2_x_m256_n256_bf16_1_alg».proof.Proof.Gen.Pre_finite_inputs_ReferenceIdeal
import proofs.«900292_g7700000000000293_dist_rs_v7x_xy2x2_x_m256_n256_bf16_1_alg».proof.Proof.Final
import proofs.«900292_g7700000000000293_dist_rs_v7x_xy2x2_x_m256_n256_bf16_1_alg».proof.Proof.FinalW
import proofs.«900292_g7700000000000293_dist_rs_v7x_xy2x2_x_m256_n256_bf16_1_alg».proof.Proof.ValueBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.RS.run_named (F := Bits) m ρ)

theorem frame_ki : Cert.frame_KernelIdeal := fun m ρ _ =>
  (θ_run Cert.KernelIdeal.defs _ _).mono (fun _ h c => (h c).2) (Cert.KernelIdeal.RS.run_named (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Device `c`'s result is its own half of its slab plus its partner's narrowed half; its slab is row-block `c / 2` of the
    whole `x` and its partner's the other row-block; so the result is column block `c / 2` of the sum over the rows. -/
theorem algebraic : Cert.algebraic_KernelIdeal_ReferenceIdeal := by
  intro m ρ m' ρ' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdeal.RS.run_named (F := Ideal) m ρ)
    have e1 := (Cert.KernelIdeal.RS.xstg_eq (F := Ideal) m c).trans (hagree c)
    have e2 := (Cert.KernelIdeal.RS.xstg_eq (F := Ideal) m (Cert.KernelIdeal.RS.peer c)).trans (hagree (Cert.KernelIdeal.RS.peer c))
    unfold Cert.KernelIdeal.RS.outAt Cert.KernelIdeal.RS.landed Cert.KernelIdeal.RS.sendVal
    rw [e1, e2]
    exact Cert.KernelIdeal.RS.out_eq_block _ c
  · refine (θ_run Cert.ReferenceIdeal.defs _ _).mono (fun _ h => ⟨(h 0).1.trans (Cert.ReferenceIdeal.Read.val_main_v0_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
